-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x128 .f32) (main_arg2 : FVec F S64x128 .f32) (main_arg3 : FVec F S128 .f32) (main_arg4 : FVec F S128x64 .f32) (main_arg5 : FVec F S128x64 .f32) (main_arg6 : FVec F S64 .f32) (main_arg7 : IVec S2x1600000 32) (main_arg8 : IVec S2x200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 91
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S100000x1, .f32⟩
  | .hbm, ⟨30, _⟩ => ⟨S1600000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000x1, .f32⟩
  | .hbm, ⟨57, _⟩ => ⟨S_, .f32⟩
  | .hbm, ⟨58, _⟩ => ⟨S100000x1, .f32⟩
  | .hbm, ⟨59, _⟩ => ⟨S1600000x1, .i32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S1x200000, .i32⟩
  | .hbm, ⟨68, _⟩ => ⟨S200000, .i32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x64, .f32⟩
  | .hbm, ⟨78, _⟩ => ⟨S1x200000, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x64, .f32⟩
  | .hbm, ⟨89, _⟩ => ⟨S200000x1, .f32⟩
  | .hbm, ⟨90, _⟩ => ⟨S200000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S100000x1, .f32⟩
  | .hbm, ⟨30, _⟩ => ⟨S1600000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S100000x1, .f32⟩
  | .hbm, ⟨67, _⟩ => ⟨S1600000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x200000, .i32⟩
  | .hbm, ⟨81, _⟩ => ⟨S200000, .i32⟩
  | .hbm, ⟨82, _⟩ => ⟨S_, .i32⟩
  | .hbm, ⟨83, _⟩ => ⟨S200000, .i32⟩
  | .hbm, ⟨84, _⟩ => ⟨S200000, .i1⟩
  | .hbm, ⟨85, _⟩ => ⟨S_, .i32⟩
  | .hbm, ⟨86, _⟩ => ⟨S200000, .i32⟩
  | .hbm, ⟨87, _⟩ => ⟨S200000, .i32⟩
  | .hbm, ⟨88, _⟩ => ⟨S200000, .i32⟩
  | .hbm, ⟨89, _⟩ => ⟨S200000x1, .i32⟩
  | .hbm, ⟨90, _⟩ => ⟨S200000x64, .f32⟩
  | .hbm, ⟨91, _⟩ => ⟨S1x200000, .i32⟩
  | .hbm, ⟨92, _⟩ => ⟨S200000, .i32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S200000x64, .f32⟩
  | .hbm, ⟨103, _⟩ => ⟨S_, .f32⟩
  | .hbm, ⟨104, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.Spec.lean ====
/-
  The mathematics of the two programs, index by index, over the extended reals.

  A node array has 100000 rows.  One layer sends a row `r` of the neighbourhood mean and the same row of the node
  features to  (∑ₖ mean[r,k]·Wl[k,q] + ∑ₖ x[r,k]·Wr[k,q]) + b[q]  — the first layer followed by a maximum with zero —
  and the score of a pair `p` is  ∑ₖ zs[p,k]·zd[p,k].  Both programs compute exactly these entries; the sums are
  finite sums of products in the extended reals, in the same order of additions, so no law beyond the definition of
  each operation is used.
-/
import Idealize.ShloMosaic.PureOps.Ideal.Laws

noncomputable section

namespace Cert.Spec

open Idealize.ShloMosaic

abbrev Nodes64 : Shape := ⟨2, ![100000, 64]⟩
abbrev Nodes128 : Shape := ⟨2, ![100000, 128]⟩
abbrev W64x128 : Shape := ⟨2, ![64, 128]⟩
abbrev W128x64 : Shape := ⟨2, ![128, 64]⟩
abbrev B128 : Shape := ⟨1, ![128]⟩
abbrev B64 : Shape := ⟨1, ![64]⟩
abbrev Pairs64 : Shape := ⟨2, ![200000, 64]⟩
abbrev Pairs1 : Shape := ⟨2, ![200000, 1]⟩
abbrev Pairs : Shape := ⟨1, ![200000]⟩

/-! ## First layer: 64 input features, 128 output features -/

/-- Entry `(row of i, k)` of a 100000 × 64 array. -/
abbrev rowK1 (i : Nodes128.Idx) (k : Fin 64) : Nodes64.Idx := fun a => match a with
  | ⟨0, _⟩ => ⟨(i 0).val, (i 0).isLt⟩
  | ⟨1, _⟩ => ⟨k.val, k.isLt⟩
/-- Entry `(k, column of i)` of a 64 × 128 weight. -/
abbrev kCol1 (i : Nodes128.Idx) (k : Fin 64) : W64x128.Idx := fun a => match a with
  | ⟨0, _⟩ => ⟨k.val, k.isLt⟩
  | ⟨1, _⟩ => ⟨(i 1).val, (i 1).isLt⟩
/-- Entry `column of i` of a bias of length 128. -/
abbrev col1 (i : Nodes128.Idx) : B128.Idx := fun a => match a with
  | ⟨0, _⟩ => ⟨(i 1).val, (i 1).isLt⟩

/-- The first layer: `max ((mean·Wl + x·Wr) + b) 0`, entry by entry. -/
def lin1 (mean x : Nodes64.Idx → EReal) (Wl Wr : W64x128.Idx → EReal) (b : B128.Idx → EReal) : Nodes128.Idx → EReal := fun i =>
  FloatOps.maximumf (F := Ideal) (φ := .f32)
    (FloatOps.addf (F := Ideal) (φ := .f32)
      (FloatOps.addf (F := Ideal) (φ := .f32) (∑ k : Fin 64, mean (rowK1 i k) * Wl (kCol1 i k)) (∑ k : Fin 64, x (rowK1 i k) * Wr (kCol1 i k)))
      (b (col1 i)))
    (FloatOps.ofBits (F := Ideal) .f32 0x00000000#32)

/-! ## Second layer: 128 input features, 64 output features -/

abbrev rowK2 (i : Nodes64.Idx) (k : Fin 128) : Nodes128.Idx := fun a => match a with
  | ⟨0, _⟩ => ⟨(i 0).val, (i 0).isLt⟩
  | ⟨1, _⟩ => ⟨k.val, k.isLt⟩
abbrev kCol2 (i : Nodes64.Idx) (k : Fin 128) : W128x64.Idx := fun a => match a with
  | ⟨0, _⟩ => ⟨k.val, k.isLt⟩
  | ⟨1, _⟩ => ⟨(i 1).val, (i 1).isLt⟩
abbrev col2 (i : Nodes64.Idx) : B64.Idx := fun a => match a with
  | ⟨0, _⟩ => ⟨(i 1).val, (i 1).isLt⟩

/-- The second layer: `(mean·Wl + x·Wr) + b`, entry by entry. -/
def lin2 (mean x : Nodes128.Idx → EReal) (Wl Wr : W128x64.Idx → EReal) (b : B64.Idx → EReal) : Nodes64.Idx → EReal := fun i =>
  FloatOps.addf (F := Ideal) (φ := .f32)
    (FloatOps.addf (F := Ideal) (φ := .f32) (∑ k : Fin 128, mean (rowK2 i k) * Wl (kCol2 i k)) (∑ k : Fin 128, x (rowK2 i k) * Wr (kCol2 i k)))
    (b (col2 i))

/-! ## The score of a pair -/

/-- Entry `(p, k)` of a 200000 × 64 array, `p` the row of an index into the 200000 × 1 column of scores. -/
abbrev pairK1 (i : Pairs1.Idx) (k : Fin 64) : Pairs64.Idx := fun a => match a with
  | ⟨0, _⟩ => ⟨(i 0).val, (i 0).isLt⟩
  | ⟨1, _⟩ => ⟨k.val, k.isLt⟩
/-- The same, `p` an index into the flat vector of scores. -/
abbrev pairK (i : Pairs.Idx) (k : Fin 64) : Pairs64.Idx := fun a => match a with
  | ⟨0, _⟩ => ⟨(i 0).val, (i 0).isLt⟩
  | ⟨1, _⟩ => ⟨k.val, k.isLt⟩

/-- The scores as a 200000 × 1 column: `∑ₖ zs[p,k]·zd[p,k]`. -/
def dec2 (zs zd : Pairs64.Idx → EReal) : Pairs1.Idx → EReal := fun i =>
  ∑ k : Fin 64, FloatOps.mulf (F := Ideal) (φ := .f32) (zs (pairK1 i k)) (zd (pairK1 i k))
/-- The scores as a flat vector. -/
def dec (zs zd : Pairs64.Idx → EReal) : Pairs.Idx → EReal := fun i =>
  ∑ k : Fin 64, FloatOps.mulf (F := Ideal) (φ := .f32) (zs (pairK i k)) (zd (pairK i k))

end Cert.Spec

end
-- ==== Proof.HostChains.lean ====
/-
  The host operations between the kernel regions, read as functions of the buffers they find.

  Each stretch of host operations is a fold over the buffer contents it is entered with.  Read at the one buffer a
  later region takes, the fold is the composite of the operations that lead to it: a gather of rows along the edge
  list, a scatter-add into the rows of the destinations, the division by the degree — the same operations, in the same
  order, as the reference program applies, so the composite IS the reference's stage of the same inputs.  Read at a
  buffer no operation of the stretch writes, the fold is the contents found.  The last stretch reshapes the
  200000 × 1 column of scores into the flat vector: entry `p` of the vector is entry `(p, 0)` of the column.
-/
import proofs.«162568_j16192026706661_1_alg».proof.Proof.Gen.KernelIdeal.Frame
import proofs.«162568_j16192026706661_1_alg».proof.Proof.Gen.ReferenceIdeal.Read
import proofs.«162568_j16192026706661_1_alg».proof.Proof.Spec
import Idealize.ShloMosaic.Lib.StableHlo.Run
import Idealize.ShloMosaic.Lib.Pipeline.Value

set_option maxRecDepth 16384
noncomputable section

namespace Cert.KernelIdeal.HostChains
open Cert.KernelIdeal Cert.KernelIdeal.Gen Idealize.ShloMosaic Idealize.ShloMosaic.TcCoe Idealize.SL.Sem Idealize.ShloMosaic.StableHlo
open Cert.ReferenceIdeal.Read

-- A buffer that no operation of a stretch writes keeps its contents: no operation's result buffer is that one.
local macro "not_written" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (W : Valuation τ sig (Elt Ideal))

/-! ## Before the first region -/

theorem kept0_arg0 : StableHlo.after hostOps0 W (Proc.devRef .tc main_arg0) = W (Proc.devRef .tc main_arg0) := by not_written
theorem kept0_arg1 : StableHlo.after hostOps0 W (Proc.devRef .tc main_arg1) = W (Proc.devRef .tc main_arg1) := by not_written
theorem kept0_arg2 : StableHlo.after hostOps0 W (Proc.devRef .tc main_arg2) = W (Proc.devRef .tc main_arg2) := by not_written
theorem kept0_arg3 : StableHlo.after hostOps0 W (Proc.devRef .tc main_arg3) = W (Proc.devRef .tc main_arg3) := by not_written
theorem kept0_arg4 : StableHlo.after hostOps0 W (Proc.devRef .tc main_arg4) = W (Proc.devRef .tc main_arg4) := by not_written
theorem kept0_arg5 : StableHlo.after hostOps0 W (Proc.devRef .tc main_arg5) = W (Proc.devRef .tc main_arg5) := by not_written
theorem kept0_arg6 : StableHlo.after hostOps0 W (Proc.devRef .tc main_arg6) = W (Proc.devRef .tc main_arg6) := by not_written
theorem kept0_arg7 : StableHlo.after hostOps0 W (Proc.devRef .tc main_arg7) = W (Proc.devRef .tc main_arg7) := by not_written
theorem kept0_arg8 : StableHlo.after hostOps0 W (Proc.devRef .tc main_arg8) = W (Proc.devRef .tc main_arg8) := by not_written

set_option maxHeartbeats 4000000 in
/-- The first neighbourhood mean: the reference's mean of the node features along the edge list. -/
theorem mean1 : StableHlo.after hostOps0 W (Proc.devRef .tc main_v21)
    = val_main_v21 (F := Ideal) (W (Proc.devRef .tc main_arg0)) (W (Proc.devRef .tc main_arg7)) := by
  after_results
  rfl

/-! ## Between the first region and the second -/

theorem kept1_v22 : StableHlo.after hostOps1 W (Proc.devRef .tc main_v22) = W (Proc.devRef .tc main_v22) := by not_written
theorem kept1_arg4 : StableHlo.after hostOps1 W (Proc.devRef .tc main_arg4) = W (Proc.devRef .tc main_arg4) := by not_written
theorem kept1_arg5 : StableHlo.after hostOps1 W (Proc.devRef .tc main_arg5) = W (Proc.devRef .tc main_arg5) := by not_written
theorem kept1_arg6 : StableHlo.after hostOps1 W (Proc.devRef .tc main_arg6) = W (Proc.devRef .tc main_arg6) := by not_written
theorem kept1_arg8 : StableHlo.after hostOps1 W (Proc.devRef .tc main_arg8) = W (Proc.devRef .tc main_arg8) := by not_written

set_option maxHeartbeats 4000000 in
/-- The second neighbourhood mean: the reference's mean of the first layer along the edge list, once the first
    region's output is the reference's first layer. -/
theorem mean2 (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x7 : (⟨S2x1600000, .i32⟩ : BufTy).Contents (Elt Ideal))
    (hh : W (Proc.devRef .tc main_v22) = val_main_v28 (F := Ideal) x0 x1 x2 x3 x7) (h7 : W (Proc.devRef .tc main_arg7) = x7) :
    StableHlo.after hostOps1 W (Proc.devRef .tc main_v44) = val_main_v50 (F := Ideal) x0 x1 x2 x3 x7 := by
  after_results
  rw [hh, h7]
  rfl

/-! ## Between the second region and the third -/

set_option maxHeartbeats 4000000 in
/-- The rows of the second layer at the pairs' first endpoints. -/
theorem rows_src (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S128x64, .f32⟩ : BufTy).Contents (Elt Ideal)) (x6 : (⟨S64, .f32⟩ : BufTy).Contents (Elt Ideal)) (x7 : (⟨S2x1600000, .i32⟩ : BufTy).Contents (Elt Ideal)) (x8 : (⟨S2x200000, .i32⟩ : BufTy).Contents (Elt Ideal))
    (hz : W (Proc.devRef .tc main_v45) = val_main_v56 (F := Ideal) x0 x1 x2 x3 x4 x5 x6 x7) (h8 : W (Proc.devRef .tc main_arg8) = x8) :
    StableHlo.after hostOps2 W (Proc.devRef .tc main_v54) = val_main_v65 (F := Ideal) x0 x1 x2 x3 x4 x5 x6 x7 x8 := by
  after_results
  rw [hz, h8]
  rfl

set_option maxHeartbeats 4000000 in
/-- The rows of the second layer at the pairs' second endpoints. -/
theorem rows_dst (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S128x64, .f32⟩ : BufTy).Contents (Elt Ideal)) (x6 : (⟨S64, .f32⟩ : BufTy).Contents (Elt Ideal)) (x7 : (⟨S2x1600000, .i32⟩ : BufTy).Contents (Elt Ideal)) (x8 : (⟨S2x200000, .i32⟩ : BufTy).Contents (Elt Ideal))
    (hz : W (Proc.devRef .tc main_v45) = val_main_v56 (F := Ideal) x0 x1 x2 x3 x4 x5 x6 x7) (h8 : W (Proc.devRef .tc main_arg8) = x8) :
    StableHlo.after hostOps2 W (Proc.devRef .tc main_v63) = val_main_v74 (F := Ideal) x0 x1 x2 x3 x4 x5 x6 x7 x8 := by
  after_results
  rw [hz, h8]
  rfl

/-! ## After the third region -/

/-- The column of scores read as a flat vector: entry `p` is entry `(p, 0)`. -/
theorem flat (zs zd : Cert.Spec.Pairs64.Idx → EReal) (h : W (Proc.devRef .tc main_v64) = Cert.Spec.dec2 zs zd) :
    StableHlo.after hostOps3 W (Proc.devRef .tc main_v65) = Cert.Spec.dec zs zd := by
  after_results
  rw [h]
  funext i
  show shapeCast S200000 (Cert.Spec.dec2 zs zd) shapeCasts_S200000x1_S200000 i = _
  have hk : (S200000x1.rowMajor (fun a => match a with
      | ⟨0, _⟩ => ⟨(i 0).val, (i 0).isLt⟩
      | ⟨1, _⟩ => ⟨0, Nat.one_pos⟩ : S200000x1.Idx)).val = (S200000.rowMajor i).val := by
    rw [Shape.rowMajor_val_two, Shape.rowMajor_val_one]
    show (i 0).val * 1 + 0 = (i 0).val
    omega
  rw [shapeCast_apply (Cert.Spec.dec2 zs zd) shapeCasts_S200000x1_S200000 i _ hk]
  rfl

end Cert.KernelIdeal.HostChains
end
-- ==== Proof.Layer1.lean ====
import proofs.«162568_j16192026706661_1_alg».proof.Proof.Gen.KernelIdeal.Frame
import proofs.«162568_j16192026706661_1_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Layer1
open Cert.KernelIdeal Cert.KernelIdeal.Gen Idealize.ShloMosaic Idealize.ShloMosaic.TcCoe Idealize.SL.Sem
open Idealize.ShloMosaic.Pipeline (Dat)

/-! ## The product of a 5000 × 64 block and a 64 × 128 weight, entry by entry -/

/-- The left operand's index has the output's row on axis 0 … -/
theorem lhs_dot_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and the contraction coordinate on axis 1. -/
theorem lhs_dot_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's index has the contraction coordinate on axis 0 … -/
theorem rhs_dot_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and the output's column on axis 1. -/
theorem rhs_dot_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry `(row of i, k)` of a 5000 × 64 block. -/
abbrev blkRowK (i : S5000x128.Idx) (k : Fin 64) : S5000x64.Idx := fun a => match a with
  | ⟨0, _⟩ => ⟨(i 0).val, (i 0).isLt⟩
  | ⟨1, _⟩ => ⟨k.val, k.isLt⟩
/-- Entry `(k, column of i)` of a 64 × 128 weight. -/
abbrev blkKCol (i : S5000x128.Idx) (k : Fin 64) : S64x128.Idx := fun a => match a with
  | ⟨0, _⟩ => ⟨k.val, k.isLt⟩
  | ⟨1, _⟩ => ⟨(i 1).val, (i 1).isLt⟩
/-- Entry `column of i` of a bias of length 128. -/
abbrev blkCol (i : S5000x128.Idx) : S128.Idx := fun a => match a with
  | ⟨0, _⟩ => ⟨(i 1).val, (i 1).isLt⟩

/-- A matrix product accumulated into zero is, at `(p, q)`, the sum over `k` of `a[p,k]·b[k,q]`. -/
theorem matmul_entry {φ₁ φ₂ : FTy} (a : FVec Ideal S5000x64 φ₁) (b : FVec Ideal S64x128 φ₂) (i : S5000x128.Idx) :
    matmul dot_S5000x64_S64x128_S5000x128_1_0_0_1_n_n none a b (constant (F := Ideal) S5000x128 .f32 0x00000000#32) i
      = ∑ k : Fin 64, a (blkRowK i k) * b (blkKCol i k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx i ((ValueIdx.contrEquiv1 dot_S5000x64_S64x128_S5000x128_1_0_0_1_n_n 64 rfl rfl).symm k) = blkRowK i k := funext fun a => Fin.ext (by
    match a with
    | ⟨0, _⟩ => exact lhs_dot_0 _ _
    | ⟨1, _⟩ => exact (lhs_dot_1 _ _).trans hk)
  have er : dot_S5000x64_S64x128_S5000x128_1_0_0_1_n_n.rhsIdx i ((ValueIdx.contrEquiv1 dot_S5000x64_S64x128_S5000x128_1_0_0_1_n_n 64 rfl rfl).symm k) = blkKCol i k := funext fun a => Fin.ext (by
    match a with
    | ⟨0, _⟩ => exact (rhs_dot_0 _ _).trans hk
    | ⟨1, _⟩ => exact rhs_dot_1 _ _)
  rw [el, er]

/-! ## The body's arithmetic at one entry of the block it stores -/

/-- A bias of length 128 laid out as one row and repeated down 5000 rows reads, at `(p, q)`, its entry `q`. -/
theorem bias_entry (x4 : Vec Ideal S128 .f32) (i : S5000x128.Idx) :
    broadcastTo S5000x128 (shapeCast S1x128 x4 shapeCasts_S128_S1x128) broadcasts_S1x128_S5000x128 i = x4 (blkCol i) := by
  refine (broadcastTo_apply (shapeCast S1x128 x4 shapeCasts_S128_S1x128) broadcasts_S1x128_S5000x128 i
    (fun a => match a with
      | ⟨0, _⟩ => ⟨0, Nat.one_pos⟩
      | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  refine shapeCast_apply x4 shapeCasts_S128_S1x128 _ (blkCol i) ?_
  rw [Shape.rowMajor_val_two, Shape.rowMajor_val_one]
  show (i 1).val = 0 * 128 + (i 1).val
  omega

/-- The stored block at `(p, q)`:  max ((∑ₖ x0[p,k]·x2[k,q] + ∑ₖ x1[p,k]·x3[k,q]) + x4[q]) 0. -/
theorem pay_entry (x0 x1 : Vec Ideal S5000x64 .f32) (x2 x3 : Vec Ideal S64x128 .f32) (x4 : Vec Ideal S128 .f32) (i : S5000x128.Idx) :
    k0_pay1 (F := Ideal) x0 x1 x2 x3 x4 i
      = FloatOps.maximumf (F := Ideal) (φ := .f32)
          (FloatOps.addf (F := Ideal) (φ := .f32)
            (FloatOps.addf (F := Ideal) (φ := .f32) (∑ k : Fin 64, x0 (blkRowK i k) * x2 (blkKCol i k)) (∑ k : Fin 64, x1 (blkRowK i k) * x3 (blkKCol i k)))
            (x4 (blkCol i)))
          (FloatOps.ofBits (F := Ideal) .f32 0x00000000#32) := by
  unfold k0_pay1
  rw [shapeCast_self]
  show FloatOps.maximumf (F := Ideal) (φ := .f32)
      (FloatOps.addf (F := Ideal) (φ := .f32)
        (FloatOps.addf (F := Ideal) (φ := .f32)
          (matmul dot_S5000x64_S64x128_S5000x128_1_0_0_1_n_n none (truncf (F := Ideal) .bf16 x0 bitsLt_bf16_f32) (truncf (F := Ideal) .bf16 x2 bitsLt_bf16_f32) (constant (F := Ideal) S5000x128 .f32 0x00000000#32) i)
          (matmul dot_S5000x64_S64x128_S5000x128_1_0_0_1_n_n none (truncf (F := Ideal) .bf16 x1 bitsLt_bf16_f32) (truncf (F := Ideal) .bf16 x3 bitsLt_bf16_f32) (constant (F := Ideal) S5000x128 .f32 0x00000000#32) i))
        (broadcastTo S5000x128 (shapeCast S1x128 x4 shapeCasts_S128_S1x128) broadcasts_S1x128_S5000x128 i))
      (FloatOps.ofBits (F := Ideal) .f32 0x00000000#32) = _
  rw [matmul_entry, matmul_entry, bias_entry]
  rfl

variable (V : (c : Dev nD) → (b : Ref sig .tc) → Buf (Elt Ideal) ((c : Thread nD τ).loc b))

/-! ## The blocks: where each window's block sits in its array -/

theorem zero2 : (![0, 0] : Fin 2 → Nat) = fun _ => 0 := funext fun a => by fin_cases a <;> rfl
theorem zero1 : (![0] : Fin 1 → Nat) = fun _ => 0 := funext fun a => by fin_cases a <;> rfl

/-- The index maps over the 20 points: the two row-blocked inputs move with the output's block of rows, whose
    block index is the point itself; the weights and the bias stay at block zero. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the mean's block at point `t` is the row of the array under row `p` of the output's block. -/
theorem read_mean (c : Dev nD) (t : Fin cfg0.N) (j : S5000x128.Idx) (k : Fin 64) :
    iblk0 V c 0 t (blkRowK j k) = V c main_v21 (Cert.Spec.rowK1 (((cfg0.win 5).blk t).view.emb j) k) := by
  obtain ⟨e00, e01, e10, e11, e20, e21, e30, e31, e40, e50, e51⟩ := idx_facts t
  show V c main_v21 (((cfg0.win 0).blk t).view.emb (blkRowK j k)) = _
  refine congrArg (V c main_v21) (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 64 + 1 * k.val = k.val; omega

/-- The same for the node features' block. -/
theorem read_feat (c : Dev nD) (t : Fin cfg0.N) (j : S5000x128.Idx) (k : Fin 64) :
    iblk0 V c 1 t (blkRowK j k) = V c main_arg0 (Cert.Spec.rowK1 (((cfg0.win 5).blk t).view.emb j) k) := by
  obtain ⟨e00, e01, e10, e11, e20, e21, e30, e31, e40, e50, e51⟩ := idx_facts t
  show V c main_arg0 (((cfg0.win 1).blk t).view.emb (blkRowK j k)) = _
  refine congrArg (V c main_arg0) (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 64 + 1 * k.val = k.val; omega

/-- A weight's block is the whole weight: its entry `(k, q)` is the array's, `q` the column under the output's. -/
theorem read_wl (c : Dev nD) (t : Fin cfg0.N) (j : S5000x128.Idx) (k : Fin 64) :
    iblk0 V c 2 t (blkKCol j k) = V c main_arg1 (Cert.Spec.kCol1 (((cfg0.win 5).blk t).view.emb j) k) := by
  obtain ⟨e00, e01, e10, e11, e20, e21, e30, e31, e40, e50, e51⟩ := idx_facts t
  show V c main_arg1 (((cfg0.win 2).blk t).view.emb (blkKCol j k)) = _
  refine congrArg (V c main_arg1) (funext fun a => Fin.ext ?_)
  match a with
  | ⟨0, _⟩ => show win0_2.index t (0 : Fin 2) * 64 + 1 * k.val = k.val; omega
  | ⟨1, _⟩ => show win0_2.index t (1 : Fin 2) * 128 + 1 * (j 1).val = win0_5.index t (1 : Fin 2) * 128 + 1 * (j 1).val; omega

theorem read_wr (c : Dev nD) (t : Fin cfg0.N) (j : S5000x128.Idx) (k : Fin 64) :
    iblk0 V c 3 t (blkKCol j k) = V c main_arg2 (Cert.Spec.kCol1 (((cfg0.win 5).blk t).view.emb j) k) := by
  obtain ⟨e00, e01, e10, e11, e20, e21, e30, e31, e40, e50, e51⟩ := idx_facts t
  show V c main_arg2 (((cfg0.win 3).blk t).view.emb (blkKCol j k)) = _
  refine congrArg (V c main_arg2) (funext fun a => Fin.ext ?_)
  match a with
  | ⟨0, _⟩ => show win0_3.index t (0 : Fin 2) * 64 + 1 * k.val = k.val; omega
  | ⟨1, _⟩ => show win0_3.index t (1 : Fin 2) * 128 + 1 * (j 1).val = win0_5.index t (1 : Fin 2) * 128 + 1 * (j 1).val; omega

/-- The bias's block is the whole bias. -/
theorem read_bias (c : Dev nD) (t : Fin cfg0.N) (j : S5000x128.Idx) :
    iblk0 V c 4 t (blkCol j) = V c main_arg3 (Cert.Spec.col1 (((cfg0.win 5).blk t).view.emb j)) := by
  obtain ⟨e00, e01, e10, e11, e20, e21, e30, e31, e40, e50, e51⟩ := idx_facts t
  show V c main_arg3 (((cfg0.win 4).blk t).view.emb (blkCol j)) = _
  refine congrArg (V c main_arg3) (funext fun a => Fin.ext ?_)
  match a with
  | ⟨0, _⟩ => show win0_4.index t (0 : Fin 1) * 128 + 1 * (j 1).val = win0_5.index t (1 : Fin 2) * 128 + 1 * (j 1).val; omega

/-! ## What a point writes back, and the whole array -/

/-- Point `t` writes back block `t` of the first layer of the arrays the region found. -/
theorem flushed_eq (c : Dev nD) (t : Fin cfg0.N) :
    (dat0 (F := Ideal) V c).flushed 5 t = ((cfg0.win 5).blk t).view.read (Elt Ideal)
      (Cert.Spec.lin1 (V c main_v21) (V c main_arg0) (V c main_arg1) (V c main_arg2) (V c main_arg3)) := by
  show (cfg0.win 5).cut (grid0.coords t) ((dat0 (F := Ideal) V c).after 5 t) = _
  rw [after0_5]
  unfold out0_5
  rw [View.canon_unit_zero zero2]
  simp only [View.ld_unit_zero (S := S5000x64) zero2, View.ld_unit_zero (S := S64x128) zero2, View.ld_unit_zero (S := S128) zero1]
  funext j
  show k0_pay1 (F := Ideal) (iblk0 V c 0 t) (iblk0 V c 1 t) (iblk0 V c 2 t) (iblk0 V c 3 t) (iblk0 V c 4 t) j
    = Cert.Spec.lin1 (V c main_v21) (V c main_arg0) (V c main_arg1) (V c main_arg2) (V c main_arg3) (((cfg0.win 5).blk t).view.emb j)
  refine (pay_entry (iblk0 V c 0 t) (iblk0 V c 1 t) (iblk0 V c 2 t) (iblk0 V c 3 t) (iblk0 V c 4 t) j).trans ?_
  unfold Cert.Spec.lin1
  refine congrArg₂ (FloatOps.maximumf (F := Ideal) (φ := .f32))
    (congrArg₂ (FloatOps.addf (F := Ideal) (φ := .f32))
      (congrArg₂ (FloatOps.addf (F := Ideal) (φ := .f32))
        (Finset.sum_congr rfl fun k _ => ?_) (Finset.sum_congr rfl fun k _ => ?_))
      (read_bias V c t j)) rfl
  · rw [read_mean V c t j k, read_wl V c t j k]
  · rw [read_feat V c t j k, read_wr V c t j k]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row `r` of the array is in the block of point `r / 5000`: the 20 blocks of 5000 rows tile the 100000 rows. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := rfl
  refine ⟨⟨(i 0).val / 5000, by rw [hN]; omega⟩, flush0_5 _, ?_⟩
  obtain ⟨e00, e01, e10, e11, e20, e21, e30, e31, e40, e50, e51⟩ := idx_facts ⟨(i 0).val / 5000, by rw [hN]; omega⟩
  rw [mem_blk]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- After region 0 its output array holds the first layer of the arrays the region found. -/
theorem layer1 (c : Dev nD) :
    (dat0 (F := Ideal) V c).arrAt 5 cfg0.N
      = Cert.Spec.lin1 (V c main_v21) (V c main_arg0) (V c main_arg1) (V c main_arg2) (V c main_arg3) :=
  (dat0 (F := Ideal) V c).arrAt_eq_of_cover 5
    (Cert.Spec.lin1 (V c main_v21) (V c main_arg0) (V c main_arg1) (V c main_arg2) (V c main_arg3))
    (fun t _ => flushed_eq V c t) cover

end Cert.KernelIdeal.Layer1
end
-- ==== Proof.Layer2.lean ====
import proofs.«162568_j16192026706661_1_alg».proof.Proof.Gen.KernelIdeal.Frame
import proofs.«162568_j16192026706661_1_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Layer2
open Cert.KernelIdeal Cert.KernelIdeal.Gen Idealize.ShloMosaic Idealize.ShloMosaic.TcCoe Idealize.SL.Sem
open Idealize.ShloMosaic.Pipeline (Dat)

/-! ## The product of a 5000 × 128 block and a 128 × 64 weight, entry by entry -/

/-- The left operand's index has the output's row on axis 0 … -/
theorem lhs_dot_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the contraction coordinate on axis 1. -/
theorem lhs_dot_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index has the contraction coordinate on axis 0 … -/
theorem rhs_dot_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and the output's column on axis 1. -/
theorem rhs_dot_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(row of i, k)` of a 5000 × 128 block. -/
abbrev blkRowK (i : S5000x64.Idx) (k : Fin 128) : S5000x128.Idx := fun a => match a with
  | ⟨0, _⟩ => ⟨(i 0).val, (i 0).isLt⟩
  | ⟨1, _⟩ => ⟨k.val, k.isLt⟩
/-- Entry `(k, column of i)` of a 128 × 64 weight. -/
abbrev blkKCol (i : S5000x64.Idx) (k : Fin 128) : S128x64.Idx := fun a => match a with
  | ⟨0, _⟩ => ⟨k.val, k.isLt⟩
  | ⟨1, _⟩ => ⟨(i 1).val, (i 1).isLt⟩
/-- Entry `column of i` of a bias of length 64. -/
abbrev blkCol (i : S5000x64.Idx) : S64.Idx := fun a => match a with
  | ⟨0, _⟩ => ⟨(i 1).val, (i 1).isLt⟩

/-- A matrix product accumulated into zero is, at `(p, q)`, the sum over `k` of `a[p,k]·b[k,q]`. -/
theorem matmul_entry {φ₁ φ₂ : FTy} (a : FVec Ideal S5000x128 φ₁) (b : FVec Ideal S128x64 φ₂) (i : S5000x64.Idx) :
    matmul dot_S5000x128_S128x64_S5000x64_1_0_0_1_n_n none a b (constant (F := Ideal) S5000x64 .f32 0x00000000#32) i
      = ∑ k : Fin 128, a (blkRowK i k) * b (blkKCol i k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = blkRowK i k := funext fun a => Fin.ext (by
    match a with
    | ⟨0, _⟩ => exact lhs_dot_0 _ _
    | ⟨1, _⟩ => exact (lhs_dot_1 _ _).trans hk)
  have er : dot_S5000x128_S128x64_S5000x64_1_0_0_1_n_n.rhsIdx i ((ValueIdx.contrEquiv1 dot_S5000x128_S128x64_S5000x64_1_0_0_1_n_n 128 rfl rfl).symm k) = blkKCol i k := funext fun a => Fin.ext (by
    match a with
    | ⟨0, _⟩ => exact (rhs_dot_0 _ _).trans hk
    | ⟨1, _⟩ => exact rhs_dot_1 _ _)
  rw [el, er]

/-! ## The body's arithmetic at one entry of the block it stores -/

/-- A bias of length 64 laid out as one row and repeated down 5000 rows reads, at `(p, q)`, its entry `q`. -/
theorem bias_entry (x4 : Vec Ideal S64 .f32) (i : S5000x64.Idx) :
    broadcastTo S5000x64 (shapeCast S1x64 x4 shapeCasts_S64_S1x64) broadcasts_S1x64_S5000x64 i = x4 (blkCol i) := by
  refine (broadcastTo_apply (shapeCast S1x64 x4 shapeCasts_S64_S1x64) broadcasts_S1x64_S5000x64 i
    (fun a => match a with
      | ⟨0, _⟩ => ⟨0, Nat.one_pos⟩
      | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  refine shapeCast_apply x4 shapeCasts_S64_S1x64 _ (blkCol i) ?_
  rw [Shape.rowMajor_val_two, Shape.rowMajor_val_one]
  show (i 1).val = 0 * 64 + (i 1).val
  omega

/-- The stored block at `(p, q)`:  (∑ₖ x0[p,k]·x2[k,q] + ∑ₖ x1[p,k]·x3[k,q]) + x4[q]. -/
theorem pay_entry (x0 x1 : Vec Ideal S5000x128 .f32) (x2 x3 : Vec Ideal S128x64 .f32) (x4 : Vec Ideal S64 .f32) (i : S5000x64.Idx) :
    k1_pay1 (F := Ideal) x0 x1 x2 x3 x4 i
      = FloatOps.addf (F := Ideal) (φ := .f32)
          (FloatOps.addf (F := Ideal) (φ := .f32) (∑ k : Fin 128, x0 (blkRowK i k) * x2 (blkKCol i k)) (∑ k : Fin 128, x1 (blkRowK i k) * x3 (blkKCol i k)))
          (x4 (blkCol i)) := by
  unfold k1_pay1
  rw [shapeCast_self, shapeCast_self]
  show FloatOps.addf (F := Ideal) (φ := .f32)
      (FloatOps.addf (F := Ideal) (φ := .f32)
        (matmul dot_S5000x128_S128x64_S5000x64_1_0_0_1_n_n none (truncf (F := Ideal) .bf16 x0 bitsLt_bf16_f32) (truncf (F := Ideal) .bf16 x2 bitsLt_bf16_f32) (constant (F := Ideal) S5000x64 .f32 0x00000000#32) i)
        (matmul dot_S5000x128_S128x64_S5000x64_1_0_0_1_n_n none (truncf (F := Ideal) .bf16 x1 bitsLt_bf16_f32) (truncf (F := Ideal) .bf16 x3 bitsLt_bf16_f32) (constant (F := Ideal) S5000x64 .f32 0x00000000#32) i))
      (broadcastTo S5000x64 (shapeCast S1x64 x4 shapeCasts_S64_S1x64) broadcasts_S1x64_S5000x64 i) = _
  rw [matmul_entry, matmul_entry, bias_entry]
  rfl

variable (V : (c : Dev nD) → (b : Ref sig .tc) → Buf (Elt Ideal) ((c : Thread nD τ).loc b))

/-! ## The blocks: where each window's block sits in its array -/

theorem zero2 : (![0, 0] : Fin 2 → Nat) = fun _ => 0 := funext fun a => by fin_cases a <;> rfl
theorem zero1 : (![0] : Fin 1 → Nat) = fun _ => 0 := funext fun a => by fin_cases a <;> rfl

/-- The index maps over the 20 points: the two row-blocked inputs move with the output's block of rows, whose
    block index is the point itself; the weights and the bias stay at block zero. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the mean's block at point `t` is the row of the array under row `p` of the output's block. -/
theorem read_mean (c : Dev nD) (t : Fin cfg1.N) (j : S5000x64.Idx) (k : Fin 128) :
    iblk1 V c 0 t (blkRowK j k) = V c main_v44 (Cert.Spec.rowK2 (((cfg1.win 5).blk t).view.emb j) k) := by
  obtain ⟨e00, e01, e10, e11, e20, e21, e30, e31, e40, e50, e51⟩ := idx_facts t
  show V c main_v44 (((cfg1.win 0).blk t).view.emb (blkRowK j k)) = _
  refine congrArg (V c main_v44) (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * k.val = k.val; omega

/-- The same for the block of the first layer's output. -/
theorem read_feat (c : Dev nD) (t : Fin cfg1.N) (j : S5000x64.Idx) (k : Fin 128) :
    iblk1 V c 1 t (blkRowK j k) = V c main_v22 (Cert.Spec.rowK2 (((cfg1.win 5).blk t).view.emb j) k) := by
  obtain ⟨e00, e01, e10, e11, e20, e21, e30, e31, e40, e50, e51⟩ := idx_facts t
  show V c main_v22 (((cfg1.win 1).blk t).view.emb (blkRowK j k)) = _
  refine congrArg (V c main_v22) (funext fun a => Fin.ext ?_)
  match a with
  | ⟨0, _⟩ => show win1_1.index t (0 : Fin 2) * 5000 + 1 * (j 0).val = win1_5.index t (0 : Fin 2) * 5000 + 1 * (j 0).val; omega
  | ⟨1, _⟩ => show win1_1.index t (1 : Fin 2) * 128 + 1 * k.val = k.val; omega

/-- A weight's block is the whole weight: its entry `(k, q)` is the array's, `q` the column under the output's. -/
theorem read_wl (c : Dev nD) (t : Fin cfg1.N) (j : S5000x64.Idx) (k : Fin 128) :
    iblk1 V c 2 t (blkKCol j k) = V c main_arg4 (Cert.Spec.kCol2 (((cfg1.win 5).blk t).view.emb j) k) := by
  obtain ⟨e00, e01, e10, e11, e20, e21, e30, e31, e40, e50, e51⟩ := idx_facts t
  show V c main_arg4 (((cfg1.win 2).blk t).view.emb (blkKCol j k)) = _
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 64 + 1 * (j 1).val = win1_5.index t (1 : Fin 2) * 64 + 1 * (j 1).val; omega

theorem read_wr (c : Dev nD) (t : Fin cfg1.N) (j : S5000x64.Idx) (k : Fin 128) :
    iblk1 V c 3 t (blkKCol j k) = V c main_arg5 (Cert.Spec.kCol2 (((cfg1.win 5).blk t).view.emb j) k) := by
  obtain ⟨e00, e01, e10, e11, e20, e21, e30, e31, e40, e50, e51⟩ := idx_facts t
  show V c main_arg5 (((cfg1.win 3).blk t).view.emb (blkKCol j k)) = _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 64 + 1 * (j 1).val = win1_5.index t (1 : Fin 2) * 64 + 1 * (j 1).val; omega

/-- The bias's block is the whole bias. -/
theorem read_bias (c : Dev nD) (t : Fin cfg1.N) (j : S5000x64.Idx) :
    iblk1 V c 4 t (blkCol j) = V c main_arg6 (Cert.Spec.col2 (((cfg1.win 5).blk t).view.emb j)) := by
  obtain ⟨e00, e01, e10, e11, e20, e21, e30, e31, e40, e50, e51⟩ := idx_facts t
  show V c main_arg6 (((cfg1.win 4).blk t).view.emb (blkCol j)) = _
  refine congrArg (V c main_arg6) (funext fun a => Fin.ext ?_)
  match a with
  | ⟨0, _⟩ => show win1_4.index t (0 : Fin 1) * 64 + 1 * (j 1).val = win1_5.index t (1 : Fin 2) * 64 + 1 * (j 1).val; omega

/-! ## What a point writes back, and the whole array -/

/-- Point `t` writes back block `t` of the second layer of the arrays the region found. -/
theorem flushed_eq (c : Dev nD) (t : Fin cfg1.N) :
    (dat1 (F := Ideal) V c).flushed 5 t = ((cfg1.win 5).blk t).view.read (Elt Ideal)
      (Cert.Spec.lin2 (V c main_v44) (V c main_v22) (V c main_arg4) (V c main_arg5) (V c main_arg6)) := by
  show (cfg1.win 5).cut (grid1.coords t) ((dat1 (F := Ideal) V c).after 5 t) = _
  rw [after1_5]
  unfold out1_5
  rw [View.canon_unit_zero zero2]
  simp only [View.ld_unit_zero (S := S5000x128) zero2, View.ld_unit_zero (S := S128x64) zero2, View.ld_unit_zero (S := S64) zero1]
  funext j
  show k1_pay1 (F := Ideal) (iblk1 V c 0 t) (iblk1 V c 1 t) (iblk1 V c 2 t) (iblk1 V c 3 t) (iblk1 V c 4 t) j
    = Cert.Spec.lin2 (V c main_v44) (V c main_v22) (V c main_arg4) (V c main_arg5) (V c main_arg6) (((cfg1.win 5).blk t).view.emb j)
  refine (pay_entry (iblk1 V c 0 t) (iblk1 V c 1 t) (iblk1 V c 2 t) (iblk1 V c 3 t) (iblk1 V c 4 t) j).trans ?_
  unfold Cert.Spec.lin2
  refine congrArg₂ (FloatOps.addf (F := Ideal) (φ := .f32))
    (congrArg₂ (FloatOps.addf (F := Ideal) (φ := .f32))
      (Finset.sum_congr rfl fun k _ => ?_) (Finset.sum_congr rfl fun k _ => ?_))
    (read_bias V c t j)
  · rw [read_mean V c t j k, read_wl V c t j k]
  · rw [read_feat V c t j k, read_wr V c t j k]

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Row `r` of the array is in the block of point `r / 5000`: the 20 blocks of 5000 rows tile the 100000 rows. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := rfl
  refine ⟨⟨(i 0).val / 5000, by rw [hN]; omega⟩, flush1_5 _, ?_⟩
  obtain ⟨e00, e01, e10, e11, e20, e21, e30, e31, e40, e50, e51⟩ := idx_facts ⟨(i 0).val / 5000, by rw [hN]; omega⟩
  rw [mem_blk]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 64 ≤ (i 1).val ∧ (i 1).val < win1_5.index ⟨(i 0).val / 5000, _⟩ (1 : Fin 2) * 64 + 64
    rw [e51]; omega

/-- After region 1 its output array holds the second layer of the arrays the region found. -/
theorem layer2 (c : Dev nD) :
    (dat1 (F := Ideal) V c).arrAt 5 cfg1.N
      = Cert.Spec.lin2 (V c main_v44) (V c main_v22) (V c main_arg4) (V c main_arg5) (V c main_arg6) :=
  (dat1 (F := Ideal) V c).arrAt_eq_of_cover 5
    (Cert.Spec.lin2 (V c main_v44) (V c main_v22) (V c main_arg4) (V c main_arg5) (V c main_arg6))
    (fun t _ => flushed_eq V c t) cover

end Cert.KernelIdeal.Layer2
end
-- ==== Proof.Scores.lean ====
import proofs.«162568_j16192026706661_1_alg».proof.Proof.Gen.KernelIdeal.Frame
import proofs.«162568_j16192026706661_1_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Scores
open Cert.KernelIdeal Cert.KernelIdeal.Gen Idealize.ShloMosaic Idealize.ShloMosaic.TcCoe Idealize.SL.Sem
open Idealize.ShloMosaic.Pipeline (Dat)
variable (V : (c : Dev nD) → (b : Ref sig .tc) → Buf (Elt Ideal) ((c : Thread nD τ).loc b))

/-!
  The scores.  Region 2 walks 20 points; at point `t` it loads rows `t·10000 … t·10000 + 9999` of the two
  200000 × 64 arrays, multiplies them entry by entry, sums each row over its 64 columns, and stores the 10000 sums as
  rows `t·10000 …` of the 200000 × 1 column.  So row `r` of the column ends as `∑ₖ zs[r,k]·zd[r,k]`: first the payload
  of one block at a row, then the block a point writes back, then the cover of the column by the 20 blocks.
-/

/-- The payload of one pair of blocks at row `p`: the sum over the 64 columns of the products of the two blocks'
    entries.  The two casts to the same shape are the identity; the sum over axis 1 read at `p` runs over the entries
    `(p, k)`; the cast of the 10000 sums to a 10000 × 1 column keeps the row-major position, which for `(p, 0)` is `p`. -/
theorem pay_apply (x0 x1 : Vec Ideal S10000x64 .f32) (p : Fin 10000) (q : Fin 1) :
    (k2_pay1 (F := Ideal) x0 x1) (ValueIdx.ix2 p q) = ∑ k : Fin 64, x0 (ValueIdx.ix2 p k) * x1 (ValueIdx.ix2 p k) := by
  unfold k2_pay1
  refine (shapeCast_apply _ shapeCasts_S10000_S10000x1 (ValueIdx.ix2 p q) (ValueIdx.ix1 p) ?_).trans ?_
  · rw [Shape.rowMajor_val_one, Shape.rowMajor_val_two]
    show p.val = p.val * 1 + q.val
    omega
  refine (Ideal.multiReduction_add_single _ 0x00000000#32 reduces_S10000x64_S10000 _ _ (ValueIdx.ix1 p)).trans ?_
  show ∑ k : Fin 64, _ = _
  refine Finset.sum_congr rfl fun k _ => ?_
  rw [ValueIdx.mulf_apply, shapeCast_self, shapeCast_self]
  -- the entry of the 10000 × 64 block over row `p` with column `k` inserted is `(p, k)`
  have hl : reduces_S10000x64_S10000.lift (ValueIdx.ix1 p) k = ValueIdx.ix2 p k := by
    funext a; apply Fin.ext
    match a with
    | ⟨0, _⟩ => rfl
    | ⟨1, _⟩ => rfl
  rw [hl]

/-- The offsets of a whole-block access are zero on both axes. -/
theorem zero_offsets : (![0, 0] : Fin 2 → Nat) = fun _ => 0 := funext fun a => by fin_cases a <;> rfl

/-- The printed index maps, decided once over the grid: at point `t` every window's block is block `(t, 0)`. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p` of a block at point `t` is row `t·10000 + p` of its array, on every window; so entry `(p, k)` of an input
    block is the entry the score of the output block's row `p` multiplies at column `k`. -/
theorem block_scores (c : Dev nD) (t : Fin cfg2.N) (j : S10000x1.Idx) :
    k2_pay1 (F := Ideal) (iblk2 V c 0 t) (iblk2 V c 1 t) j
      = Cert.Spec.dec2 (V c main_v54) (V c main_v63) (((cfg2.win 2).blk t).view.emb j) := by
  obtain ⟨p, q, rfl⟩ : ∃ (p : Fin 10000) (q : Fin 1), j = ValueIdx.ix2 p q := ⟨j 0, j 1, ValueIdx.eq_ix2 j⟩
  refine (pay_apply (iblk2 V c 0 t) (iblk2 V c 1 t) p q).trans ?_
  show ∑ k : Fin 64, _ = ∑ k : Fin 64, _
  refine Finset.sum_congr rfl fun k _ => ?_
  obtain ⟨e00, e01, e10, e11, e20, e21⟩ := block_index t
  have h0 : ((cfg2.win 0).blk t).view.emb (ValueIdx.ix2 p k)
      = Cert.Spec.pairK1 (((cfg2.win 2).blk t).view.emb (ValueIdx.ix2 p q)) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ValueIdx.ix2 p k)
      = Cert.Spec.pairK1 (((cfg2.win 2).blk t).view.emb (ValueIdx.ix2 p q)) k := by
    funext a; apply Fin.ext
    match a with
    | ⟨0, _⟩ => show win2_1.index t (0 : Fin 2) * 10000 + 1 * p.val = win2_2.index t (0 : Fin 2) * 10000 + 1 * p.val; omega
    | ⟨1, _⟩ => show win2_1.index t (1 : Fin 2) * 64 + 1 * k.val = k.val; omega
  have hb0 : iblk2 V c 0 t (ValueIdx.ix2 p k) = V c main_v54 (((cfg2.win 0).blk t).view.emb (ValueIdx.ix2 p k)) := rfl
  have hb1 : iblk2 V c 1 t (ValueIdx.ix2 p k) = V c main_v63 (((cfg2.win 1).blk t).view.emb (ValueIdx.ix2 p k)) := rfl
  rw [hb0, hb1, h0, h1]
  rfl

/-- What point `t` writes back is block `t` of the scores of the two arrays the region found: the one whole-block
    store leaves its payload, and each whole-block load reads its block. -/
theorem flushed_eq (c : Dev nD) (t : Fin cfg2.N) :
    (dat2 (F := Ideal) V c).flushed 2 t = ((cfg2.win 2).blk t).view.read (Elt Ideal) (Cert.Spec.dec2 (V c main_v54) (V c main_v63)) := by
  show (cfg2.win 2).cut (grid2.coords t) ((dat2 V c).after 2 t) = _
  rw [after2_2]
  unfold out2_2
  rw [View.canon_unit_zero zero_offsets]
  simp only [View.ld_unit_zero (S := S10000x64) zero_offsets]
  funext j
  exact block_scores V c t j

/-- An index of the column is in point `t`'s block iff each coordinate lies in the block's range on its axis. -/
theorem mem_blk (t : Fin cfg2.N) (i : S200000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v64).slice (win2_2.rect t)).set ↔ _
  rw [View.set_slice_whole, Rect.mem_set_unit]
  exact Iff.rfl

/-- The 20 blocks of 10000 rows tile the column: row `r` is in the block of point `r / 10000`. -/
theorem cover (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  have hlt : (i 0).val / 10000 < cfg2.N := by
    show (i 0).val / 10000 < grid2.N
    rw [N_2]; omega
  obtain ⟨-, -, -, -, e20, e21⟩ := block_index ⟨(i 0).val / 10000, hlt⟩
  have e20' : win2_2.index ⟨(i 0).val / 10000, hlt⟩ (0 : Fin 2) = (i 0).val / 10000 := e20
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    omega
  | ⟨1, _⟩ =>
    show win2_2.index ⟨(i 0).val / 10000, hlt⟩ (1 : Fin 2) * 1 ≤ (i 1).val
      ∧ (i 1).val < win2_2.index ⟨(i 0).val / 10000, hlt⟩ (1 : Fin 2) * 1 + 1
    omega

/-- After region 2 its output array, a 200000 × 1 column, holds the row sums of the products of the two arrays the region found. -/
theorem scores (c : Dev nD) :
    (dat2 (F := Ideal) V c).arrAt 2 cfg2.N = Cert.Spec.dec2 (V c main_v54) (V c main_v63) :=
  (dat2 (F := Ideal) V c).arrAt_eq_of_cover 2 (Cert.Spec.dec2 (V c main_v54) (V c main_v63))
    (fun t _ => flushed_eq V c t) cover

end Cert.KernelIdeal.Scores
end
-- ==== Proof.RefValue.lean ====
/-
  The reference program, stage by stage, against the index-by-index specification: its first layer, its second layer
  and its scores are the specification's functions of the stages before them.  Each host operation is read at an index
  (a product of matrices as a sum over the contracted axis, a sum along an axis as the initial value plus the sum, a
  broadcast at the index it copies from); the terms that result are the specification's, entry by entry.
-/
import proofs.«162568_j16192026706661_1_alg».proof.Proof.Gen.ReferenceIdeal.Read
import proofs.«162568_j16192026706661_1_alg».proof.Proof.Spec

noncomputable section

namespace Cert.ReferenceIdeal.RefValue
open Cert.ReferenceIdeal Cert.ReferenceIdeal.Gen Cert.ReferenceIdeal.Read Idealize.ShloMosaic

/-- The first layer of the reference: `max ((mean·Wl + x·Wr) + b) 0` of the neighbourhood mean before it. -/
theorem layer1 (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x7 : (⟨S2x1600000, .i32⟩ : BufTy).Contents (Elt Ideal)) :
    val_main_v28 (F := Ideal) x0 x1 x2 x3 x7 = Cert.Spec.lin1 (val_main_v21 (F := Ideal) x0 x7) x0 x1 x2 x3 := by
  funext i
  rw [val_main_v28_apply, val_main_v27_apply, val_main_v24_apply, val_main_v22_apply, val_main_v23_apply, val_main_v26_apply,
    val_main_v25_apply, val_main_call0_v0_apply, val_main_call0_cst_apply]
  generalize val_main_v21 (F := Ideal) x0 x7 = mean
  rfl

/-- The second layer of the reference: `(mean·Wl + h·Wr) + b` of the second neighbourhood mean and the first layer. -/
theorem layer2 (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S128x64, .f32⟩ : BufTy).Contents (Elt Ideal)) (x6 : (⟨S64, .f32⟩ : BufTy).Contents (Elt Ideal)) (x7 : (⟨S2x1600000, .i32⟩ : BufTy).Contents (Elt Ideal)) :
    val_main_v56 (F := Ideal) x0 x1 x2 x3 x4 x5 x6 x7
      = Cert.Spec.lin2 (val_main_v50 (F := Ideal) x0 x1 x2 x3 x7) (val_main_v28 (F := Ideal) x0 x1 x2 x3 x7) x4 x5 x6 := by
  funext i
  rw [val_main_v56_apply, val_main_v53_apply, val_main_v51_apply, val_main_v52_apply, val_main_v55_apply, val_main_v54_apply]
  generalize val_main_v50 (F := Ideal) x0 x1 x2 x3 x7 = mean
  generalize val_main_v28 (F := Ideal) x0 x1 x2 x3 x7 = h
  rfl

/-- A sum along the second axis with initial value zero, of the products of two 200000 × 64 arrays, is the score:
    zero plus a sum is the sum, and the entry the sum visits at `k` is `(p, k)`. -/
theorem scores_of (zs zd : (⟨S200000x64, .f32⟩ : BufTy).Contents (Elt Ideal)) :
    Host.reduceAdd (F := Ideal) (mulf (F := Ideal) zs zd) (constant (F := Ideal) S_ .f32 0x00000000#32) reducesTo_S200000x64_S200000_d1 h_S_
      = Cert.Spec.dec zs zd := by
  funext i
  have hr : S200000x64.Reduces [1] S200000 := by decide
  simp only [Host.reduceAdd, Ideal.hostReduceAdd_def]
  rw [Ideal.hostReduceAdd_single reducesTo_S200000x64_S200000_d1 hr]
  show Ideal.ofBits .f32 0x00000000#32 + _ = _
  rw [Ideal.ofBits_zero_f32, zero_add]
  unfold Cert.Spec.dec
  refine Finset.sum_congr rfl fun k _ => ?_
  have e : hr.lift i k = Cert.Spec.pairK i k := funext fun a => Fin.ext (by
    match a with
    | ⟨0, _⟩ => rfl
    | ⟨1, _⟩ => rfl)
  rw [← e]
  rfl

/-- The scores of the reference: the row sums of the products of the two gathered arrays. -/
theorem scores (x0 : (⟨S100000x64, .f32⟩ : BufTy).Contents (Elt Ideal)) (x1 : (⟨S64x128, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S128x64, .f32⟩ : BufTy).Contents (Elt Ideal)) (x6 : (⟨S64, .f32⟩ : BufTy).Contents (Elt Ideal)) (x7 : (⟨S2x1600000, .i32⟩ : BufTy).Contents (Elt Ideal)) (x8 : (⟨S2x200000, .i32⟩ : BufTy).Contents (Elt Ideal)) :
    val_main_v76 (F := Ideal) x0 x1 x2 x3 x4 x5 x6 x7 x8
      = Cert.Spec.dec (val_main_v65 (F := Ideal) x0 x1 x2 x3 x4 x5 x6 x7 x8) (val_main_v74 (F := Ideal) x0 x1 x2 x3 x4 x5 x6 x7 x8) := by
  unfold val_main_v76 val_main_v75 val_main_cst_14
  exact scores_of _ _

end Cert.ReferenceIdeal.RefValue
end
-- ==== Proof.Thread.lean ====
/-
  The kernel program's result, boundary by boundary.

  The program is three kernel regions among four stretches of host operations.  The buffer contents at each boundary
  are a function of the contents at the boundary before: a stretch of host operations applies its composite, a region
  leaves in its output array the layer (or the scores) of the arrays it found and leaves every other buffer as it was.
  Walking from the launch to the return, each boundary's contents at the buffers the next item reads are the
  reference's stages of the argument arrays: the first mean, the first layer, the second mean, the second layer, the
  two gathers of its rows, and the scores.  So the returned vector is the reference's result of the same arguments.
-/
import proofs.«162568_j16192026706661_1_alg».proof.Proof.HostChains
import proofs.«162568_j16192026706661_1_alg».proof.Proof.Layer1
import proofs.«162568_j16192026706661_1_alg».proof.Proof.Layer2
import proofs.«162568_j16192026706661_1_alg».proof.Proof.Scores
import proofs.«162568_j16192026706661_1_alg».proof.Proof.RefValue

set_option maxRecDepth 16384
noncomputable section

namespace Cert.KernelIdeal.Thread
open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## The argument arrays as launched -/

abbrev x0 (c : Dev nD) : (⟨S100000x64, .f32⟩ : BufTy).Contents (Elt Ideal) := m ((c : Thread nD τ).loc main_arg0)
abbrev x1 (c : Dev nD) : (⟨S64x128, .f32⟩ : BufTy).Contents (Elt Ideal) := m ((c : Thread nD τ).loc main_arg1)
abbrev x2 (c : Dev nD) : (⟨S64x128, .f32⟩ : BufTy).Contents (Elt Ideal) := m ((c : Thread nD τ).loc main_arg2)
abbrev x3 (c : Dev nD) : (⟨S128, .f32⟩ : BufTy).Contents (Elt Ideal) := m ((c : Thread nD τ).loc main_arg3)
abbrev x4 (c : Dev nD) : (⟨S128x64, .f32⟩ : BufTy).Contents (Elt Ideal) := m ((c : Thread nD τ).loc main_arg4)
abbrev x5 (c : Dev nD) : (⟨S128x64, .f32⟩ : BufTy).Contents (Elt Ideal) := m ((c : Thread nD τ).loc main_arg5)
abbrev x6 (c : Dev nD) : (⟨S64, .f32⟩ : BufTy).Contents (Elt Ideal) := m ((c : Thread nD τ).loc main_arg6)
abbrev x7 (c : Dev nD) : (⟨S2x1600000, .i32⟩ : BufTy).Contents (Elt Ideal) := m ((c : Thread nD τ).loc main_arg7)
abbrev x8 (c : Dev nD) : (⟨S2x200000, .i32⟩ : BufTy).Contents (Elt Ideal) := m ((c : Thread nD τ).loc main_arg8)

/-! ## Entering the first region -/

theorem in1_arg0 (c : Dev nD) : W1 m ρ c (Proc.devRef .tc main_arg0) = x0 m c := HostChains.kept0_arg0 (W0 m ρ c)
theorem in1_arg1 (c : Dev nD) : W1 m ρ c (Proc.devRef .tc main_arg1) = x1 m c := HostChains.kept0_arg1 (W0 m ρ c)
theorem in1_arg2 (c : Dev nD) : W1 m ρ c (Proc.devRef .tc main_arg2) = x2 m c := HostChains.kept0_arg2 (W0 m ρ c)
theorem in1_arg3 (c : Dev nD) : W1 m ρ c (Proc.devRef .tc main_arg3) = x3 m c := HostChains.kept0_arg3 (W0 m ρ c)
theorem in1_arg4 (c : Dev nD) : W1 m ρ c (Proc.devRef .tc main_arg4) = x4 m c := HostChains.kept0_arg4 (W0 m ρ c)
theorem in1_arg5 (c : Dev nD) : W1 m ρ c (Proc.devRef .tc main_arg5) = x5 m c := HostChains.kept0_arg5 (W0 m ρ c)
theorem in1_arg6 (c : Dev nD) : W1 m ρ c (Proc.devRef .tc main_arg6) = x6 m c := HostChains.kept0_arg6 (W0 m ρ c)
theorem in1_arg7 (c : Dev nD) : W1 m ρ c (Proc.devRef .tc main_arg7) = x7 m c := HostChains.kept0_arg7 (W0 m ρ c)
theorem in1_arg8 (c : Dev nD) : W1 m ρ c (Proc.devRef .tc main_arg8) = x8 m c := HostChains.kept0_arg8 (W0 m ρ c)
theorem in1_mean (c : Dev nD) : W1 m ρ c (Proc.devRef .tc main_v21) = val_main_v21 (F := Ideal) (x0 m c) (x7 m c) :=
  HostChains.mean1 (W0 m ρ c)

/-! ## Leaving the first region: its output is the reference's first layer -/

theorem out1_layer (c : Dev nD) : W2 m ρ c (Proc.devRef .tc main_v22) = val_main_v28 (F := Ideal) (x0 m c) (x1 m c) (x2 m c) (x3 m c) (x7 m c) := by
  refine (W2_arr m ρ c 5).trans ?_
  refine (Layer1.layer1 (V1 m ρ) c).trans ?_
  rw [show V1 m ρ c main_v21 = _ from in1_mean m ρ c, show V1 m ρ c main_arg0 = _ from in1_arg0 m ρ c,
    show V1 m ρ c main_arg1 = _ from in1_arg1 m ρ c, show V1 m ρ c main_arg2 = _ from in1_arg2 m ρ c,
    show V1 m ρ c main_arg3 = _ from in1_arg3 m ρ c]
  exact (Cert.ReferenceIdeal.RefValue.layer1 _ _ _ _ _).symm
theorem out1_arg4 (c : Dev nD) : W2 m ρ c (Proc.devRef .tc main_arg4) = x4 m c :=
  (W2_of_ne m ρ c main_arg4 (by decide)).trans (in1_arg4 m ρ c)
theorem out1_arg5 (c : Dev nD) : W2 m ρ c (Proc.devRef .tc main_arg5) = x5 m c :=
  (W2_of_ne m ρ c main_arg5 (by decide)).trans (in1_arg5 m ρ c)
theorem out1_arg6 (c : Dev nD) : W2 m ρ c (Proc.devRef .tc main_arg6) = x6 m c :=
  (W2_of_ne m ρ c main_arg6 (by decide)).trans (in1_arg6 m ρ c)
theorem out1_arg7 (c : Dev nD) : W2 m ρ c (Proc.devRef .tc main_arg7) = x7 m c :=
  (W2_of_ne m ρ c main_arg7 (by decide)).trans (in1_arg7 m ρ c)
theorem out1_arg8 (c : Dev nD) : W2 m ρ c (Proc.devRef .tc main_arg8) = x8 m c :=
  (W2_of_ne m ρ c main_arg8 (by decide)).trans (in1_arg8 m ρ c)

/-! ## Entering the second region -/

theorem in2_mean (c : Dev nD) : W3 m ρ c (Proc.devRef .tc main_v44) = val_main_v50 (F := Ideal) (x0 m c) (x1 m c) (x2 m c) (x3 m c) (x7 m c) :=
  HostChains.mean2 (W2 m ρ c) _ _ _ _ _ (out1_layer m ρ c) (out1_arg7 m ρ c)
theorem in2_layer (c : Dev nD) : W3 m ρ c (Proc.devRef .tc main_v22) = val_main_v28 (F := Ideal) (x0 m c) (x1 m c) (x2 m c) (x3 m c) (x7 m c) :=
  (HostChains.kept1_v22 (W2 m ρ c)).trans (out1_layer m ρ c)
theorem in2_arg4 (c : Dev nD) : W3 m ρ c (Proc.devRef .tc main_arg4) = x4 m c :=
  (HostChains.kept1_arg4 (W2 m ρ c)).trans (out1_arg4 m ρ c)
theorem in2_arg5 (c : Dev nD) : W3 m ρ c (Proc.devRef .tc main_arg5) = x5 m c :=
  (HostChains.kept1_arg5 (W2 m ρ c)).trans (out1_arg5 m ρ c)
theorem in2_arg6 (c : Dev nD) : W3 m ρ c (Proc.devRef .tc main_arg6) = x6 m c :=
  (HostChains.kept1_arg6 (W2 m ρ c)).trans (out1_arg6 m ρ c)
theorem in2_arg8 (c : Dev nD) : W3 m ρ c (Proc.devRef .tc main_arg8) = x8 m c :=
  (HostChains.kept1_arg8 (W2 m ρ c)).trans (out1_arg8 m ρ c)

/-! ## Leaving the second region: its output is the reference's second layer -/

theorem out2_layer (c : Dev nD) : W4 m ρ c (Proc.devRef .tc main_v45) = val_main_v56 (F := Ideal) (x0 m c) (x1 m c) (x2 m c) (x3 m c) (x4 m c) (x5 m c) (x6 m c) (x7 m c) := by
  refine (W4_arr m ρ c 5).trans ?_
  refine (Layer2.layer2 (V3 m ρ) c).trans ?_
  rw [show V3 m ρ c main_v44 = _ from in2_mean m ρ c, show V3 m ρ c main_v22 = _ from in2_layer m ρ c,
    show V3 m ρ c main_arg4 = _ from in2_arg4 m ρ c, show V3 m ρ c main_arg5 = _ from in2_arg5 m ρ c,
    show V3 m ρ c main_arg6 = _ from in2_arg6 m ρ c]
  exact (Cert.ReferenceIdeal.RefValue.layer2 _ _ _ _ _ _ _ _).symm
theorem out2_arg8 (c : Dev nD) : W4 m ρ c (Proc.devRef .tc main_arg8) = x8 m c :=
  (W4_of_ne m ρ c main_arg8 (by decide)).trans (in2_arg8 m ρ c)

/-! ## Entering the third region: the rows of the second layer at the pairs' endpoints -/

theorem in3_src (c : Dev nD) : W5 m ρ c (Proc.devRef .tc main_v54) = val_main_v65 (F := Ideal) (x0 m c) (x1 m c) (x2 m c) (x3 m c) (x4 m c) (x5 m c) (x6 m c) (x7 m c) (x8 m c) :=
  HostChains.rows_src (W4 m ρ c) _ _ _ _ _ _ _ _ _ (out2_layer m ρ c) (out2_arg8 m ρ c)
theorem in3_dst (c : Dev nD) : W5 m ρ c (Proc.devRef .tc main_v63) = val_main_v74 (F := Ideal) (x0 m c) (x1 m c) (x2 m c) (x3 m c) (x4 m c) (x5 m c) (x6 m c) (x7 m c) (x8 m c) :=
  HostChains.rows_dst (W4 m ρ c) _ _ _ _ _ _ _ _ _ (out2_layer m ρ c) (out2_arg8 m ρ c)

/-! ## Leaving the third region, and the return -/

theorem out3_scores (c : Dev nD) : W6 m ρ c (Proc.devRef .tc main_v64)
    = Cert.Spec.dec2 (val_main_v65 (F := Ideal) (x0 m c) (x1 m c) (x2 m c) (x3 m c) (x4 m c) (x5 m c) (x6 m c) (x7 m c) (x8 m c)) (val_main_v74 (F := Ideal) (x0 m c) (x1 m c) (x2 m c) (x3 m c) (x4 m c) (x5 m c) (x6 m c) (x7 m c) (x8 m c)) := by
  refine (W6_arr m ρ c 2).trans ?_
  refine (Scores.scores (V5 m ρ) c).trans ?_
  rw [show V5 m ρ c main_v54 = _ from in3_src m ρ c, show V5 m ρ c main_v63 = _ from in3_dst m ρ c]

/-- The returned vector is the reference's result of the argument arrays. -/
theorem result (c : Dev nD) : W7 m ρ c (Proc.devRef .tc main_v65) = val_main_v76 (F := Ideal) (x0 m c) (x1 m c) (x2 m c) (x3 m c) (x4 m c) (x5 m c) (x6 m c) (x7 m c) (x8 m c) :=
  (HostChains.flat (W6 m ρ c) _ _ (out3_scores m ρ c)).trans (Cert.ReferenceIdeal.RefValue.scores _ _ _ _ _ _ _ _ _).symm

end Cert.KernelIdeal.Thread
end
-- ==== Proof.lean ====
/-
  The certificate of a two-layer GraphSAGE link predictor against its plain reference.

  Both programs compute, for each of 200000 node pairs, the dot product of the two endpoints' rows of
      z = mean₂·W_l2 + h·W_r2 + b2,      h = max (mean₁·W_l1 + x·W_r1 + b1) 0,
  where mean₁ and mean₂ are the degree-normalised sums of the neighbours' rows of x and of h along the edge list.
  The kernel program computes the two layers and the dot products in three tiled kernels (blocks of 5000 node rows,
  resp. 10000 pairs; a product of matrices accumulated into zero; a lane sum) and keeps the gathers and the
  scatter-adds as host operations; the reference is host operations only.  Over the extended reals a change of float
  format is the identity, a product of matrices into a zero accumulator and a host product of matrices are the same
  finite sum, and a lane sum and a host sum with initial value zero are the same finite sum; the gathers, scatter-adds
  and divisions are the same operations on both sides.  So stage by stage the kernel program's buffers hold the
  reference's stages, and the two results are equal entry by entry.  No algebraic law beyond `0 + s = s` is used, and
  the precondition is not needed.

  The frames of the two kernel programs are the generated ones; the reference's frame is its generated run with the
  result dropped; the idealization rewrote no operation, so `preserves` is trivial.
-/
import proofs.«162568_j16192026706661_1_alg».proof.Defs
import proofs.«162568_j16192026706661_1_alg».proof.Proof.Gen.Kernel
import proofs.«162568_j16192026706661_1_alg».proof.Proof.Gen.Kernel.Skeleton
import proofs.«162568_j16192026706661_1_alg».proof.Proof.Gen.Kernel.Launch
import proofs.«162568_j16192026706661_1_alg».proof.Proof.Gen.Kernel.Points
import proofs.«162568_j16192026706661_1_alg».proof.Proof.Gen.Kernel.Frame
import proofs.«162568_j16192026706661_1_alg».proof.Proof.Gen.KernelIdeal
import proofs.«162568_j16192026706661_1_alg».proof.Proof.Gen.KernelIdeal.Skeleton
import proofs.«162568_j16192026706661_1_alg».proof.Proof.Gen.KernelIdeal.Launch
import proofs.«162568_j16192026706661_1_alg».proof.Proof.Gen.KernelIdeal.Points
import proofs.«162568_j16192026706661_1_alg».proof.Proof.Gen.KernelIdeal.Frame
import proofs.«162568_j16192026706661_1_alg».proof.Proof.Gen.ReferenceIdeal
import proofs.«162568_j16192026706661_1_alg».proof.Proof.Gen.ReferenceIdeal.Run
import proofs.«162568_j16192026706661_1_alg».proof.Proof.Gen.ReferenceIdeal.Read
import proofs.«162568_j16192026706661_1_alg».proof.Proof.Gen.Pre_finite_inputs
import proofs.«162568_j16192026706661_1_alg».proof.Proof.RunResult
import proofs.«162568_j16192026706661_1_alg».proof.Proof.Thread
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends with its result at the reference's result term of its own arguments (the walk through its
    boundaries); the reference ends at that term of ITS arguments, which agree with the kernel program's. -/
theorem algebraic : Cert.algebraic_KernelIdeal_ReferenceIdeal := by
  intro m ρ m' ρ' _ hagree
  refine ⟨fun c => Cert.ReferenceIdeal.Read.val_main_v76 (F := Ideal) (Cert.KernelIdeal.Thread.x0 m c) (Cert.KernelIdeal.Thread.x1 m c) (Cert.KernelIdeal.Thread.x2 m c) (Cert.KernelIdeal.Thread.x3 m c) (Cert.KernelIdeal.Thread.x4 m c) (Cert.KernelIdeal.Thread.x5 m c) (Cert.KernelIdeal.Thread.x6 m c) (Cert.KernelIdeal.Thread.x7 m c) (Cert.KernelIdeal.Thread.x8 m c), ?_, ?_⟩
  · exact (θ_run Cert.KernelIdeal.defs _ _).mono
      (fun r h c => ⟨(h c).1.trans (Cert.KernelIdeal.Thread.result m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v76_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
